-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x12 : Shape := ⟨2, ![200000, 12]⟩
abbrev S2x3200000 : Shape := ⟨2, ![2, 3200000]⟩
abbrev S12x64 : Shape := ⟨2, ![12, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S200000x12 : S_.BroadcastsInDim S200000x12 (![] : Fin 0 → Fin S200000x12.rank)
  reducesTo_S200000x12_S_d0_1 : S200000x12.ReducesTo [0, 1] S_
  h_S_ : 0 < S_.numel
  bcast_S_S12x64 : S_.BroadcastsInDim S12x64 (![] : Fin 0 → Fin S12x64.rank)
  reducesTo_S12x64_S_d0_1 : S12x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S32x2 .f32) (main_arg9 : FVec F S2 .f32) (main_v33 : IVec S_ 1) : IVec S_ 1 :=
  let main_v34 : FVec F S32x2 .f32 := Host.absf main_arg8
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64x32 .f32) (main_arg6 : FVec F S32 .f32) (main_arg7 : FVec F S64x32 .f32) (main_arg8 : FVec F S32x2 .f32) (main_arg9 : FVec F S2 .f32) (main_v13 : IVec S_ 1) (main_v16 : IVec S12x64 1) : IVec S_ 1 :=
  let main_c_5 : IVec S_ 1 := constantI S_ 1 1#1
  let main_v17 : IVec S_ 1 := (fun x v => Host.reduce IntOp.andi x v reducesTo_S12x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_v33

def fn {F : FTy → Type} [FloatOps F] (main_arg0 : FVec F S200000x12 .f32) (main_arg1 : IVec S2x3200000 32) (main_arg2 : FVec F S12x64 .f32) (main_arg3 : FVec F S64 .f32) (main_arg4 : FVec F S12x64 .f32) (main_arg5 : FVec F S64x32 .f32) (main_arg6 : FVec F S32 .f32) (main_arg7 : FVec F S64x32 .f32) (main_arg8 : FVec F S32x2 .f32) (main_arg9 : FVec F S2 .f32) : IVec S_ 1 :=
  let main_v0 : FVec F S200000x12 .f32 := Host.absf main_arg0
  let main_cst : FVec F S_ .f32 := constant S_ .f32 0x7F800000#32
  let main_v1 : FVec F S200000x12 .f32 := broadcastInDim S200000x12 ![] bcast_S_S200000x12 main_cst
  let main_v2 : IVec S200000x12 1 := cmpf .olt main_v0 main_v1
  let main_c : IVec S_ 1 := constantI S_ 1 1#1
  let main_v3 : IVec S_ 1 := (fun x v => Host.reduce IntOp.andi x v reducesTo_S200000x12_S_d0_1 h_S_) main_v2 main_c
  let main_v4 : FVec F S12x64 .f32 := Host.absf main_arg2
  let main_cst_0 : FVec F S_ .f32 := constant S_ .f32 0x7F800000#32
  let main_v5 : FVec F S12x64 .f32 := broadcastInDim S12x64 ![] bcast_S_S12x64 main_cst_0
  let main_v6 : IVec S12x64 1 := cmpf .olt main_v4 main_v5
  let main_c_1 : IVec S_ 1 := constantI S_ 1 1#1
  let main_v7 : IVec S_ 1 := (fun x v => Host.reduce IntOp.andi x v reducesTo_S12x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S12x64 .f32 := Host.absf main_arg4
  let main_cst_4 : FVec F S_ .f32 := constant S_ .f32 0x7F800000#32
  let main_v15 : FVec F S12x64 .f32 := broadcastInDim S12x64 ![] bcast_S_S12x64 main_cst_4
  let main_v16 : IVec S12x64 1 := cmpf .olt main_v14 main_v15
  fn_part1 (F := F) main_arg5 main_arg6 main_arg7 main_arg8 main_arg9 main_v13 main_v16
-- ==== Kernel.lean ====
abbrev S200000x12 : Shape := ⟨2, ![200000, 12]⟩
abbrev S2x3200000 : Shape := ⟨2, ![2, 3200000]⟩
abbrev S12x64 : Shape := ⟨2, ![12, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S200000 : Shape := ⟨1, ![200000]⟩
abbrev S3200000x1 : Shape := ⟨2, ![3200000, 1]⟩
abbrev S200000x1 : Shape := ⟨2, ![200000, 1]⟩
abbrev S3200000x12 : Shape := ⟨2, ![3200000, 12]⟩
abbrev S1x64 : Shape := ⟨2, ![1, 64]⟩
abbrev S200000x64 : Shape := ⟨2, ![200000, 64]⟩
abbrev S4000x12 : Shape := ⟨2, ![4000, 12]⟩
abbrev S4000x64 : Shape := ⟨2, ![4000, 64]⟩
abbrev S3200000x64 : Shape := ⟨2, ![3200000, 64]⟩
abbrev S1x32 : Shape := ⟨2, ![1, 32]⟩
abbrev S1x2 : Shape := ⟨2, ![1, 2]⟩
abbrev S200000x2 : Shape := ⟨2, ![200000, 2]⟩
abbrev S4000x2 : Shape := ⟨2, ![4000, 2]⟩
abbrev S4000x32 : Shape := ⟨2, ![4000, 32]⟩

abbrev nBuf : Space → Nat
  | .hbm => 62
  | .vmem => 20
  | .smem => 0
  | _ => 0

abbrev bufTy : (tb : Table) → Fin (tcTables nBuf tb) → BufTy
  | .hbm, ⟨0, _⟩ => ⟨S200000x12, .f32⟩
  | .hbm, ⟨1, _⟩ => ⟨S2x3200000, .i32⟩
  | .hbm, ⟨2, _⟩ => ⟨S12x64, .f32⟩
  | .hbm, ⟨3, _⟩ => ⟨S64, .f32⟩
  | .hbm, ⟨4, _⟩ => ⟨S12x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32x2, .f32⟩
  | .hbm, ⟨9, _⟩ => ⟨S2, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .f32⟩
  | .hbm, ⟨15, _⟩ => ⟨S3200000, .f32⟩
  | .hbm, ⟨16, _⟩ => ⟨S_, .f32⟩
  | .hbm, ⟨17, _⟩ => ⟨S200000, .f32⟩
  | .hbm, ⟨18, _⟩ => ⟨S3200000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S200000x1, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x12, .f32⟩
  | .hbm, ⟨36, _⟩ => ⟨S_, .f32⟩
  | .hbm, ⟨37, _⟩ => ⟨S200000x12, .f32⟩
  | .hbm, ⟨38, _⟩ => ⟨S3200000x1, .i32⟩
  | .hbm, ⟨39, _⟩ => ⟨S200000x12, .f32⟩
  | .hbm, ⟨40, _⟩ => ⟨S200000x12, .f32⟩
  | .hbm, ⟨41, _⟩ => ⟨S200000x12, .f32⟩
  | .hbm, ⟨42, _⟩ => ⟨S1x64, .f32⟩
  | .hbm, ⟨43, _⟩ => ⟨S200000x64, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x64, .f32⟩
  | .hbm, ⟨53, _⟩ => ⟨S_, .f32⟩
  | .hbm, ⟨54, _⟩ => ⟨S200000x64, .f32⟩
  | .hbm, ⟨55, _⟩ => ⟨S3200000x1, .i32⟩
  | .hbm, ⟨56, _⟩ => ⟨S200000x64, .f32⟩
  | .hbm, ⟨57, _⟩ => ⟨S200000x64, .f32⟩
  | .hbm, ⟨58, _⟩ => ⟨S200000x64, .f32⟩
  | .hbm, ⟨59, _⟩ => ⟨S1x32, .f32⟩
  | .hbm, ⟨60, _⟩ => ⟨S1x2, .f32⟩
  | .hbm, ⟨61, _⟩ => ⟨S200000x2, .f32⟩
  | .local _ .vmem, ⟨0, _⟩ => ⟨S4000x12, .f32⟩
  | .local _ .vmem, ⟨1, _⟩ => ⟨S4000x12, .f32⟩
  | .local _ .vmem, ⟨2, _⟩ => ⟨S4000x12, .f32⟩
  | .local _ .vmem, ⟨3, _⟩ => ⟨S4000x12, .f32⟩
  | .local _ .vmem, ⟨4, _⟩ => ⟨S12x64, .f32⟩
  | .local _ .vmem, ⟨5, _⟩ => ⟨S1x64, .f32⟩
  | .local _ .vmem, ⟨6, _⟩ => ⟨S12x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S64x32, .f32⟩
  | .local _ .vmem, ⟨14, _⟩ => ⟨S1x32, .f32⟩
  | .local _ .vmem, ⟨15, _⟩ => ⟨S64x32, .f32⟩
  | .local _ .vmem, ⟨16, _⟩ => ⟨S32x2, .f32⟩
  | .local _ .vmem, ⟨17, _⟩ => ⟨S1x2, .f32⟩
  | .local _ .vmem, ⟨18, _⟩ => ⟨S4000x2, .f32⟩
  | .local _ .vmem, ⟨19, _⟩ => ⟨S4000x2, .f32⟩
  | _, _ => ⟨S200000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  bcast_S200000_S200000x1_0 : S200000.BroadcastsInDim S200000x1 (![0] : Fin 1 → Fin S200000x1.rank)
  bcast_S_S200000x12 : S_.BroadcastsInDim S200000x12 (![] : Fin 0 → Fin S200000x12.rank)
  bcast_S200000x1_S200000x12_0_1 : S200000x1.BroadcastsInDim S200000x12 (![0, 1] : Fin 2 → Fin S200000x12.rank)
  shapeCasts_S64_S1x64 : S64.ShapeCasts S1x64
  inb_S4000x12_S4000x12_0_0 : ∀ a, (![0, 0] : Fin 2 → Nat) a + S4000x12.size a ≤ S4000x12.size a
  h_S4000x12 : 0 < S4000x12.numel
  shapeCasts_S4000x12_S4000x12 : S4000x12.ShapeCasts S4000x12
  bitsLt_bf16_f32 : FTy.bits .bf16 < FTy.bits .f32
  inb_S12x64_S12x64_0_0 : ∀ a, (![0, 0] : Fin 2 → Nat) a + S12x64.size a ≤ S12x64.size a
  h_S12x64 : 0 < S12x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  shapeCasts_S32_S1x32 : S32.ShapeCasts S1x32
  shapeCasts_S2_S1x2 : S2.ShapeCasts S1x2
  shapeCasts_S4000x64_S4000x64 : S4000x64.ShapeCasts S4000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  scatter_S200000_S3200000x1_S3200000_n_0_0_1_wf : ScatterDims.WF S200000 S3200000x1 S3200000 [] [0] [0] 1
  gather_S200000x12_S3200000x1_S3200000x12_1_0_n_n_0_1_112_wf : GatherDims.WF S200000x12 S3200000x1 S3200000x12 [1] [0] [] [0] [] 1 ![1, 12]
  scatter_S200000x12_S3200000x1_S3200000x12_1_0_0_1_wf : ScatterDims.WF S200000x12 S3200000x1 S3200000x12 [1] [0] [0] 1
  dot_S4000x12_S12x64_S4000x64_1_0_0_1_n_n_wf : DotDims.WF S4000x12 S12x64 S4000x64 [1] [0] [0] [1] [] []
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S4000x64_S64x32_S4000x32_1_0_0_1_n_n_wf : DotDims.WF S4000x64 S64x32 S4000x32 [1] [0] [0] [1] [] []
  dot_S4000x32_S32x2_S4000x2_1_0_0_1_n_n_wf : DotDims.WF S4000x32 S32x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x12.size a ≤ S200000x12.size a
  hwx0_0 : ∀ i : grid0.Coords, EltTy.bits .f32 = 32 ∨ (Rect.block (s := S200000x12) S4000x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x12.size a ≤ S200000x12.size a
  hwx0_1 : ∀ i : grid0.Coords, EltTy.bits .f32 = 32 ∨ (Rect.block (s := S200000x12) S4000x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x64.size a ≤ S12x64.size a
  hwx0_2 : ∀ i : grid0.Coords, EltTy.bits .f32 = 32 ∨ (Rect.block (s := S12x64) S12x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x64.size a ≤ S12x64.size a
  hwx0_4 : ∀ i : grid0.Coords, EltTy.bits .f32 = 32 ∨ (Rect.block (s := S12x64) S12x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S200000x64.size a
  hwx0_5 : ∀ i : grid0.Coords, EltTy.bits .f32 = 32 ∨ (Rect.block (s := S200000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S200000x64.size a
  hwx1_1 : ∀ i : grid1.Coords, EltTy.bits .f32 = 32 ∨ (Rect.block (s := S200000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x2.size a ≤ S32x2.size a
  hwx1_5 : ∀ i : grid1.Coords, EltTy.bits .f32 = 32 ∨ (Rect.block (s := S32x2) S32x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x2.size a ≤ S200000x2.size a
  hwx1_7 : ∀ i : grid1.Coords, EltTy.bits .f32 = 32 ∨ (Rect.block (s := S200000x2) S4000x2.size (cc1_transform_7 i) (hinb1_7 i)).WholeWords (EltTy.packing .f32)

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def gather_S200000x12_S3200000x1_S3200000x12_1_0_n_n_0_1_112 : GatherDims S200000x12 S3200000x1 S3200000x12 where
  offsetDims := [1]
  collapsedSliceDims := [0]
  operandBatchingDims := []
  startIndicesBatchingDims := []
  startIndexMap := [0]
  indexVectorDim := 1
  sliceSizes := ![1, 12]
  wf := gather_S200000x12_S3200000x1_S3200000x12_1_0_n_n_0_1_112_wf
def scatter_S200000x12_S3200000x1_S3200000x12_1_0_0_1 : ScatterDims S200000x12 S3200000x1 S3200000x12 where
  updateWindowDims := [1]
  insertedWindowDims := [0]
  scatterDimsToOperandDims := [0]
  indexVectorDim := 1
  wf := scatter_S200000x12_S3200000x1_S3200000x12_1_0_0_1_wf
def dot_S4000x12_S12x64_S4000x64_1_0_0_1_n_n : DotDims S4000x12 S12x64 S4000x64 where
  lhsContracting := [1]
  rhsContracting := [0]
  lhsNonContracting := [0]
  rhsNonContracting := [1]
  lhsBatch := []
  rhsBatch := []
  wf := dot_S4000x12_S12x64_S4000x64_1_0_0_1_n_n_wf
def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x2_S4000x2_1_0_0_1_n_n : DotDims S4000x32 S32x2 S4000x2 where
  lhsContracting := [1]
  rhsContracting := [0]
  lhsNonContracting := [0]
  rhsNonContracting := [1]
  lhsBatch := []
  rhsBatch := []
  wf := dot_S4000x32_S32x2_S4000x2_1_0_0_1_n_n_wf

abbrev win0_0 : Pipeline.Window sig grid0 :=
  Pipeline.Window.ofSpec (Memref.whole main_v24) S4000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S12x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S12x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S4000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S200000x12 : Shape := ⟨2, ![200000, 12]⟩
abbrev S2x3200000 : Shape := ⟨2, ![2, 3200000]⟩
abbrev S12x64 : Shape := ⟨2, ![12, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x12 : Shape := ⟨2, ![3200000, 12]⟩
abbrev S200000 : Shape := ⟨1, ![200000]⟩
abbrev S200000x1 : Shape := ⟨2, ![200000, 1]⟩
abbrev S200000x64 : Shape := ⟨2, ![200000, 64]⟩
abbrev S1x64 : Shape := ⟨2, ![1, 64]⟩
abbrev S3200000x64 : Shape := ⟨2, ![3200000, 64]⟩
abbrev S200000x32 : Shape := ⟨2, ![200000, 32]⟩
abbrev S1x32 : Shape := ⟨2, ![1, 32]⟩
abbrev S200000x2 : Shape := ⟨2, ![200000, 2]⟩
abbrev S1x2 : Shape := ⟨2, ![1, 2]⟩

abbrev nBuf : Space → Nat
  | .hbm => 86
  | .vmem => 0
  | .smem => 0
  | _ => 0

abbrev bufTy : (tb : Table) → Fin (tcTables nBuf tb) → BufTy
  | .hbm, ⟨0, _⟩ => ⟨S200000x12, .f32⟩
  | .hbm, ⟨1, _⟩ => ⟨S2x3200000, .i32⟩
  | .hbm, ⟨2, _⟩ => ⟨S12x64, .f32⟩
  | .hbm, ⟨3, _⟩ => ⟨S64, .f32⟩
  | .hbm, ⟨4, _⟩ => ⟨S12x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32x2, .f32⟩
  | .hbm, ⟨9, _⟩ => ⟨S2, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x12, .f32⟩
  | .hbm, ⟨23, _⟩ => ⟨S_, .f32⟩
  | .hbm, ⟨24, _⟩ => ⟨S200000x12, .f32⟩
  | .hbm, ⟨25, _⟩ => ⟨S3200000x1, .i32⟩
  | .hbm, ⟨26, _⟩ => ⟨S200000x12, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S200000, .f32⟩
  | .hbm, ⟨31, _⟩ => ⟨S3200000x1, .i32⟩
  | .hbm, ⟨32, _⟩ => ⟨S200000, .f32⟩
  | .hbm, ⟨33, _⟩ => ⟨S_, .f32⟩
  | .hbm, ⟨34, _⟩ => ⟨S200000, .f32⟩
  | .hbm, ⟨35, _⟩ => ⟨S200000, .f32⟩
  | .hbm, ⟨36, _⟩ => ⟨S200000x1, .f32⟩
  | .hbm, ⟨37, _⟩ => ⟨S200000x12, .f32⟩
  | .hbm, ⟨38, _⟩ => ⟨S200000x12, .f32⟩
  | .hbm, ⟨39, _⟩ => ⟨S200000x64, .f32⟩
  | .hbm, ⟨40, _⟩ => ⟨S1x64, .f32⟩
  | .hbm, ⟨41, _⟩ => ⟨S200000x64, .f32⟩
  | .hbm, ⟨42, _⟩ => ⟨S200000x64, .f32⟩
  | .hbm, ⟨43, _⟩ => ⟨S200000x64, .f32⟩
  | .hbm, ⟨44, _⟩ => ⟨S200000x64, .f32⟩
  | .hbm, ⟨45, _⟩ => ⟨S_, .f32⟩
  | .hbm, ⟨46, _⟩ => ⟨S200000x64, .f32⟩
  | .hbm, ⟨47, _⟩ => ⟨S200000x64, .f32⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x64, .f32⟩
  | .hbm, ⟨57, _⟩ => ⟨S_, .f32⟩
  | .hbm, ⟨58, _⟩ => ⟨S200000x64, .f32⟩
  | .hbm, ⟨59, _⟩ => ⟨S3200000x1, .i32⟩
  | .hbm, ⟨60, _⟩ => ⟨S200000x64, .f32⟩
  | .hbm, ⟨61, _⟩ => ⟨S_, .f32⟩
  | .hbm, ⟨62, _⟩ => ⟨S3200000, .f32⟩
  | .hbm, ⟨63, _⟩ => ⟨S_, .f32⟩
  | .hbm, ⟨64, _⟩ => ⟨S200000, .f32⟩
  | .hbm, ⟨65, _⟩ => ⟨S3200000x1, .i32⟩
  | .hbm, ⟨66, _⟩ => ⟨S200000, .f32⟩
  | .hbm, ⟨67, _⟩ => ⟨S_, .f32⟩
  | .hbm, ⟨68, _⟩ => ⟨S200000, .f32⟩
  | .hbm, ⟨69, _⟩ => ⟨S200000, .f32⟩
  | .hbm, ⟨70, _⟩ => ⟨S200000x1, .f32⟩
  | .hbm, ⟨71, _⟩ => ⟨S200000x64, .f32⟩
  | .hbm, ⟨72, _⟩ => ⟨S200000x64, .f32⟩
  | .hbm, ⟨73, _⟩ => ⟨S200000x32, .f32⟩
  | .hbm, ⟨74, _⟩ => ⟨S1x32, .f32⟩
  | .hbm, ⟨75, _⟩ => ⟨S200000x32, .f32⟩
  | .hbm, ⟨76, _⟩ => ⟨S200000x32, .f32⟩
  | .hbm, ⟨77, _⟩ => ⟨S200000x32, .f32⟩
  | .hbm, ⟨78, _⟩ => ⟨S200000x32, .f32⟩
  | .hbm, ⟨79, _⟩ => ⟨S_, .f32⟩
  | .hbm, ⟨80, _⟩ => ⟨S200000x32, .f32⟩
  | .hbm, ⟨81, _⟩ => ⟨S200000x32, .f32⟩
  | .hbm, ⟨82, _⟩ => ⟨S200000x2, .f32⟩
  | .hbm, ⟨83, _⟩ => ⟨S1x2, .f32⟩
  | .hbm, ⟨84, _⟩ => ⟨S200000x2, .f32⟩
  | .hbm, ⟨85, _⟩ => ⟨S200000x2, .f32⟩
  | _, _ => ⟨S200000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S200000x12 : S_.BroadcastsInDim S200000x12 (![] : Fin 0 → Fin S200000x12.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x12_0_1 : S200000x1.BroadcastsInDim S200000x12 (![0, 1] : Fin 2 → Fin S200000x12.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  gather_S200000x12_S3200000x1_S3200000x12_1_0_n_n_0_1_112_wf : GatherDims.WF S200000x12 S3200000x1 S3200000x12 [1] [0] [] [0] [] 1 ![1, 12]
  scatter_S200000x12_S3200000x1_S3200000x12_1_0_0_1_wf : ScatterDims.WF S200000x12 S3200000x1 S3200000x12 [1] [0] [0] 1
  scatter_S200000_S3200000x1_S3200000_n_0_0_1_wf : ScatterDims.WF S200000 S3200000x1 S3200000 [] [0] [0] 1
  dot_S200000x12_S12x64_S200000x64_1_0_0_1_n_n_wf : DotDims.WF S200000x12 S12x64 S200000x64 [1] [0] [0] [1] [] []
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S200000x64_S64x32_S200000x32_1_0_0_1_n_n_wf : DotDims.WF S200000x64 S64x32 S200000x32 [1] [0] [0] [1] [] []
  dot_S200000x32_S32x2_S200000x2_1_0_0_1_n_n_wf : DotDims.WF S200000x32 S32x2 S200000x2 [1] [0] [0] [1] [] []

variable [Facts₀]

def gather_S200000x12_S3200000x1_S3200000x12_1_0_n_n_0_1_112 : GatherDims S200000x12 S3200000x1 S3200000x12 where
  offsetDims := [1]
  collapsedSliceDims := [0]
  operandBatchingDims := []
  startIndicesBatchingDims := []
  startIndexMap := [0]
  indexVectorDim := 1
  sliceSizes := ![1, 12]
  wf := gather_S200000x12_S3200000x1_S3200000x12_1_0_n_n_0_1_112_wf
def scatter_S200000x12_S3200000x1_S3200000x12_1_0_0_1 : ScatterDims S200000x12 S3200000x1 S3200000x12 where
  updateWindowDims := [1]
  insertedWindowDims := [0]
  scatterDimsToOperandDims := [0]
  indexVectorDim := 1
  wf := scatter_S200000x12_S3200000x1_S3200000x12_1_0_0_1_wf
def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def dot_S200000x12_S12x64_S200000x64_1_0_0_1_n_n : DotDims S200000x12 S12x64 S200000x64 where
  lhsContracting := [1]
  rhsContracting := [0]
  lhsNonContracting := [0]
  rhsNonContracting := [1]
  lhsBatch := []
  rhsBatch := []
  wf := dot_S200000x12_S12x64_S200000x64_1_0_0_1_n_n_wf
def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf
def dot_S200000x32_S32x2_S200000x2_1_0_0_1_n_n : DotDims S200000x32 S32x2 S200000x2 where
  lhsContracting := [1]
  rhsContracting := [0]
  lhsNonContracting := [0]
  rhsNonContracting := [1]
  lhsBatch := []
  rhsBatch := []
  wf := dot_S200000x32_S32x2_S200000x2_1_0_0_1_n_n_wf

class Facts : Prop extends Facts₀ where

variable [Facts]
-- ==== Proof.Spec.lean ====
/-
  The node classifier as functions of whole arrays, element by element.

  A layer maps per-node features `x` (one row per node) and the neighbourhood mean `mean` of the same shape to
  `max (mean · Wl + b + x · Wr) 0`: at node `p` and output channel `q` the two matrix products are plain sums over
  the input channel. The last stage multiplies the second layer's rows by the classifier matrix and adds its bias.
  The neighbourhood mean itself divides a per-node sum by the node's clamped in-degree; multiplying by the
  reciprocal of a divisor that is at least one is the same division on the extended reals.
-/
import Idealize.ShloMosaic.Lib.ValueIdx
import Idealize.ShloMosaic.PureOps.Ideal.Laws

noncomputable section

namespace Cert.Sage

open Idealize.ShloMosaic Idealize.ShloMosaic.ValueIdx

/-- First layer (12 input channels, 64 output channels) at node `p`, channel `q`. -/
def layer1At (mean x : FVec Ideal ⟨2, ![200000, 12]⟩ .f32) (wl wr : FVec Ideal ⟨2, ![12, 64]⟩ .f32)
    (b : Fin 64 → EReal) (p : Fin 200000) (q : Fin 64) : EReal :=
  max (((∑ k : Fin 12, mean (ix2 p k) * wl (ix2 k q)) + b q) + ∑ k : Fin 12, x (ix2 p k) * wr (ix2 k q)) 0

/-- The first layer's whole output array. -/
def layer1 (mean x : FVec Ideal ⟨2, ![200000, 12]⟩ .f32) (wl wr : FVec Ideal ⟨2, ![12, 64]⟩ .f32)
    (b : Fin 64 → EReal) : FVec Ideal ⟨2, ![200000, 64]⟩ .f32 :=
  fun i => layer1At mean x wl wr b (i 0) (i 1)

/-- Second layer (64 input channels, 32 output channels) at node `p`, channel `q`. -/
def layer2At (mean h : FVec Ideal ⟨2, ![200000, 64]⟩ .f32) (wl wr : FVec Ideal ⟨2, ![64, 32]⟩ .f32)
    (b : Fin 32 → EReal) (p : Fin 200000) (q : Fin 32) : EReal :=
  max (((∑ k : Fin 64, mean (ix2 p k) * wl (ix2 k q)) + b q) + ∑ k : Fin 64, h (ix2 p k) * wr (ix2 k q)) 0

/-- The second layer followed by the classifier (32 channels to 2 classes) at node `p`, class `q`. -/
def headAt (mean h : FVec Ideal ⟨2, ![200000, 64]⟩ .f32) (wl wr : FVec Ideal ⟨2, ![64, 32]⟩ .f32)
    (b : Fin 32 → EReal) (wc : FVec Ideal ⟨2, ![32, 2]⟩ .f32) (bc : Fin 2 → EReal) (p : Fin 200000) (q : Fin 2) : EReal :=
  (∑ k : Fin 32, layer2At mean h wl wr b p k * wc (ix2 k q)) + bc q

/-- The whole array of class scores. -/
def head (mean h : FVec Ideal ⟨2, ![200000, 64]⟩ .f32) (wl wr : FVec Ideal ⟨2, ![64, 32]⟩ .f32)
    (b : Fin 32 → EReal) (wc : FVec Ideal ⟨2, ![32, 2]⟩ .f32) (bc : Fin 2 → EReal) : FVec Ideal ⟨2, ![200000, 2]⟩ .f32 :=
  fun i => headAt mean h wl wr b wc bc (i 0) (i 1)

/-- A product with the reciprocal of a divisor that is at least one is the quotient, at the infinities too: such a
    divisor is not zero, and both sides are the product with its inverse. -/
theorem mul_recip_eq_div (a d : EReal) (hd : 1 ≤ d) : a * Ideal.div 1 d = Ideal.div a d := by
  have h0 : d ≠ 0 := fun h => by rw [h] at hd; exact absurd hd (by norm_num)
  unfold Ideal.div
  rw [if_neg h0, if_neg h0, one_mul]

/-- The clamped degree `max deg 1` is at least one. -/
theorem one_le_max_one (deg : EReal) : 1 ≤ max deg 1 := le_max_right _ _

end Cert.Sage

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.Layer1Body.lean ====
/-
  What the first pallas_call leaves in its output array, as one function of the arrays it reads.

  The call runs over 50 blocks of 4000 node rows. At block `t` the body loads rows `4000 t … 4000 t + 3999` of the
  neighbourhood mean and of the node features, the two whole 12 × 64 weight matrices and the 1 × 64 bias row, and stores
  `max (mean · Wl + bias + x · Wr) 0` for those rows: at row `p` of the block and channel `q` each product is the sum
  over the 12 input channels. The 50 blocks tile the 200000 rows, so the output array ends as the first layer of
  `Cert.Sage` at every node.
-/
import proofs.«150177_j87789131530773_1_alg».proof.Proof.Gen.KernelIdeal.Frame
import proofs.«150177_j87789131530773_1_alg».proof.Proof.Spec
import proofs.«150177_j87789131530773_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

/-! ## The body's matrix product at an index -/

theorem lhs_dot_0 (i : S4000x64.Idx) (q : dot_S4000x12_S12x64_S4000x64_1_0_0_1_n_n.contr.Idx) :
    (dot_S4000x12_S12x64_S4000x64_1_0_0_1_n_n.lhsIdx i q 0).val = (i 0).val := by
  unfold DotDims.lhsIdx
  rw [dif_neg (show ¬(0 : Fin S4000x12.rank) ∈ dot_S4000x12_S12x64_S4000x64_1_0_0_1_n_n.lhsBatch by decide), dif_pos (show (0 : Fin S4000x12.rank) ∈ dot_S4000x12_S12x64_S4000x64_1_0_0_1_n_n.lhsNonContracting by decide)]
  rfl
theorem lhs_dot_1 (i : S4000x64.Idx) (q : dot_S4000x12_S12x64_S4000x64_1_0_0_1_n_n.contr.Idx) :
    (dot_S4000x12_S12x64_S4000x64_1_0_0_1_n_n.lhsIdx i q 1).val = (q ⟨0, by decide⟩).val :=
  dot_S4000x12_S12x64_S4000x64_1_0_0_1_n_n.lhsIdx_val_of_single rfl i q
theorem rhs_dot_0 (i : S4000x64.Idx) (q : dot_S4000x12_S12x64_S4000x64_1_0_0_1_n_n.contr.Idx) :
    (dot_S4000x12_S12x64_S4000x64_1_0_0_1_n_n.rhsIdx i q 0).val = (q ⟨0, by decide⟩).val :=
  dot_S4000x12_S12x64_S4000x64_1_0_0_1_n_n.rhsIdx_val_of_single rfl i q
theorem rhs_dot_1 (i : S4000x64.Idx) (q : dot_S4000x12_S12x64_S4000x64_1_0_0_1_n_n.contr.Idx) :
    (dot_S4000x12_S12x64_S4000x64_1_0_0_1_n_n.rhsIdx i q 1).val = (i 1).val := by
  unfold DotDims.rhsIdx
  rw [dif_neg (show ¬(1 : Fin S12x64.rank) ∈ dot_S4000x12_S12x64_S4000x64_1_0_0_1_n_n.rhsBatch by decide), dif_pos (show (1 : Fin S12x64.rank) ∈ dot_S4000x12_S12x64_S4000x64_1_0_0_1_n_n.rhsNonContracting by decide)]
  rfl

/-- A 4000 × 12 block times a 12 × 64 matrix into the zero accumulator, at row `p` and column `q`: the sum over the
    12 contracted channels. -/
theorem matmul_apply {φ₁ φ₂ : FTy} (l : FVec Ideal S4000x12 φ₁) (r : FVec Ideal S12x64 φ₂) (p : Fin 4000) (q : Fin 64) :
    matmul dot_S4000x12_S12x64_S4000x64_1_0_0_1_n_n none l r (constant S4000x64 .f32 0x00000000#32) (ix2 p q)
      = ∑ k : Fin 12, l (ix2 p k) * r (ix2 k q) := by
  simp only [matmul]
  rw [Ideal.matmul_constant_zero_apply, ← Equiv.sum_comp (ValueIdx.contrEquiv1 dot_S4000x12_S12x64_S4000x64_1_0_0_1_n_n 12 rfl rfl).symm]
  refine Finset.sum_congr rfl fun k _ => ?_
  have hk := ValueIdx.contrEquiv1_symm_val dot_S4000x12_S12x64_S4000x64_1_0_0_1_n_n 12 rfl rfl k
  have el : dot_S4000x12_S12x64_S4000x64_1_0_0_1_n_n.lhsIdx (ix2 p q) ((ValueIdx.contrEquiv1 dot_S4000x12_S12x64_S4000x64_1_0_0_1_n_n 12 rfl rfl).symm k) = ix2 p k := funext fun a => Fin.ext (by
    match a with
    | ⟨0, _⟩ => exact lhs_dot_0 _ _
    | ⟨1, _⟩ => exact (lhs_dot_1 _ _).trans hk)
  have er : dot_S4000x12_S12x64_S4000x64_1_0_0_1_n_n.rhsIdx (ix2 p q) ((ValueIdx.contrEquiv1 dot_S4000x12_S12x64_S4000x64_1_0_0_1_n_n 12 rfl rfl).symm k) = ix2 k q := funext fun a => Fin.ext (by
    match a with
    | ⟨0, _⟩ => exact (rhs_dot_0 _ _).trans hk
    | ⟨1, _⟩ => exact rhs_dot_1 _ _)
  rw [el, er]

/-! ## The body's stored value at an index -/

/-- What the body stores at row `p` and channel `q` of its block, from the blocks it loaded: the mean rows `x0`, the
    feature rows `x1`, the two weight matrices `x2` and `x4`, the bias row `x3`. -/
theorem pay_apply (x0 x1 : Vec Ideal S4000x12 .f32) (x2 x4 : Vec Ideal S12x64 .f32) (x3 : Vec Ideal S1x64 .f32)
    (p : Fin 4000) (q : Fin 64) :
    k0_pay1 (F := Ideal) x0 x1 x2 x4 x3 (ix2 p q)
      = max (((∑ k : Fin 12, x0 (ix2 p k) * x2 (ix2 k q)) + x3 (ix2 (0 : Fin 1) q)) + ∑ k : Fin 12, x1 (ix2 p k) * x4 (ix2 k q)) 0 := by
  unfold k0_pay1
  rw [maximumf_apply, addf_apply, addf_apply, broadcast_apply, matmul_apply, matmul_apply, Cert.LibKeepdims.row_broadcast_apply]
  rw [show (FloatOps.ofBits FTy.f32 0x00000000#32 : Ideal .f32) = 0 from Ideal.ofBits_zero_f32, shapeCast_self]
  rfl

end Cert.KernelIdeal.Layer1

end
-- ==== Proof.Layer1Array.lean ====
/-
  The first pallas_call's output array after the call: the first layer of `Cert.Sage` of the arrays the call reads.

  Block `t` of the mean and feature windows is rows `4000 t … 4000 t + 3999` of their arrays (all 12 columns); the
  weight and bias windows are their whole arrays at every block; block `t` of the output window is rows
  `4000 t … 4000 t + 3999` of the output (all 64 columns). So what point `t` writes back is block `t` of the layer's
  whole output, and row `r` of the output lies in block `r / 4000`: the 50 write-backs cover the array.
-/
import proofs.«150177_j87789131530773_1_alg».proof.Proof.Layer1Body

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each of the 50 points: the row windows move with the point, the weight and
    bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 50 := lt_of_lt_of_eq t.isLt N_0

/-- Row `p` of block `t` is row `4000 t + p` of the array. -/
abbrev row (t : Fin cfg0.N) (p : Fin 4000) : Fin 200000 :=
  ⟨t.val * 4000 + p.val, by have := point_lt t; have := p.isLt; omega⟩

theorem mean_blk (c : Dev nD) (t : Fin cfg0.N) (p : Fin 4000) (k : Fin 12) :
    (iblk0 V c 0 t : Vec Ideal S4000x12 .f32) (ix2 p k) = (V c main_v24 : Vec Ideal S200000x12 .f32) (ix2 (row t p) k) := by
  obtain ⟨e0, e1, -⟩ := idx_facts t
  unfold iblk0
  rw [View.read_apply]
  show V c main_v24 _ = V c main_v24 _
  refine congrArg (V c main_v24) ?_
  funext a
  apply Fin.ext
  match a with
  | ⟨0, _⟩ => show win0_0.index t (0 : Fin 2) * 4000 + 1 * p.val = t.val * 4000 + p.val; rw [e0]; omega
  | ⟨1, _⟩ => show win0_0.index t (1 : Fin 2) * 12 + 1 * k.val = k.val; rw [e1]; omega

theorem feat_blk (c : Dev nD) (t : Fin cfg0.N) (p : Fin 4000) (k : Fin 12) :
    (iblk0 V c 1 t : Vec Ideal S4000x12 .f32) (ix2 p k) = (V c main_arg0 : Vec Ideal S200000x12 .f32) (ix2 (row t p) k) := by
  obtain ⟨-, -, e0, e1, -⟩ := idx_facts t
  unfold iblk0
  rw [View.read_apply]
  show V c main_arg0 _ = V c main_arg0 _
  refine congrArg (V c main_arg0) ?_
  funext a
  apply Fin.ext
  match a with
  | ⟨0, _⟩ => show win0_1.index t (0 : Fin 2) * 4000 + 1 * p.val = t.val * 4000 + p.val; rw [e0]; omega
  | ⟨1, _⟩ => show win0_1.index t (1 : Fin 2) * 12 + 1 * k.val = k.val; rw [e1]; omega

theorem wl_blk (c : Dev nD) (t : Fin cfg0.N) (k : Fin 12) (q : Fin 64) :
    (iblk0 V c 2 t : Vec Ideal S12x64 .f32) (ix2 k q) = (V c main_arg2 : Vec Ideal S12x64 .f32) (ix2 k q) := by
  obtain ⟨-, -, -, -, e0, e1, -⟩ := idx_facts t
  unfold iblk0
  rw [View.read_apply]
  show V c main_arg2 _ = V c main_arg2 _
  refine congrArg (V c main_arg2) ?_
  funext a
  apply Fin.ext
  match a with
  | ⟨0, _⟩ => show win0_2.index t (0 : Fin 2) * 12 + 1 * k.val = k.val; rw [e0]; omega
  | ⟨1, _⟩ => show win0_2.index t (1 : Fin 2) * 64 + 1 * q.val = q.val; rw [e1]; omega

theorem bias_blk (c : Dev nD) (t : Fin cfg0.N) (q : Fin 64) :
    (iblk0 V c 3 t : Vec Ideal S1x64 .f32) (ix2 (0 : Fin 1) q) = (V c main_v25 : Vec Ideal S1x64 .f32) (ix2 (0 : Fin 1) q) := by
  obtain ⟨-, -, -, -, -, -, e0, e1, -⟩ := idx_facts t
  unfold iblk0
  rw [View.read_apply]
  show V c main_v25 _ = V c main_v25 _
  refine congrArg (V c main_v25) ?_
  funext a
  apply Fin.ext
  match a with
  | ⟨0, _⟩ => show win0_3.index t (0 : Fin 2) * 1 + 1 * 0 = 0; rw [e0]
  | ⟨1, _⟩ => show win0_3.index t (1 : Fin 2) * 64 + 1 * q.val = q.val; rw [e1]; omega

theorem wr_blk (c : Dev nD) (t : Fin cfg0.N) (k : Fin 12) (q : Fin 64) :
    (iblk0 V c 4 t : Vec Ideal S12x64 .f32) (ix2 k q) = (V c main_arg4 : Vec Ideal S12x64 .f32) (ix2 k q) := by
  obtain ⟨-, -, -, -, -, -, -, -, e0, e1, -⟩ := idx_facts t
  unfold iblk0
  rw [View.read_apply]
  show V c main_arg4 _ = V c main_arg4 _
  refine congrArg (V c main_arg4) ?_
  funext a
  apply Fin.ext
  match a with
  | ⟨0, _⟩ => show win0_4.index t (0 : Fin 2) * 12 + 1 * k.val = k.val; rw [e0]; omega
  | ⟨1, _⟩ => show win0_4.index t (1 : Fin 2) * 64 + 1 * q.val = q.val; rw [e1]; omega

/-- The layer's whole output, of the arrays as the call finds them. -/
abbrev out (c : Dev nD) : FVec Ideal ⟨2, ![200000, 64]⟩ .f32 :=
  Cert.Sage.layer1 (V c main_v24) (V c main_arg0) (V c main_arg2) (V c main_arg4) (fun q => (V c main_v25 : Vec Ideal S1x64 .f32) (ix2 (0 : Fin 1) q))

/-- What point `t` writes back is block `t` of the layer's output. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S4000x12) hz, View.ld_unit_zero (S := S12x64) hz, View.ld_unit_zero (S := S1x64) hz]
  funext j
  obtain ⟨p, q, rfl⟩ : ∃ (p : Fin 4000) (q : Fin 64), j = ix2 p q := ⟨j 0, j 1, eq_ix2 j⟩
  obtain ⟨-, -, -, -, -, -, -, -, -, -, e0, e1⟩ := idx_facts t
  have hemb : ((cfg0.win 5).blk t).view.emb (ix2 p q) = (ix2 (row t p) q : S200000x64.Idx) := by
    funext a
    apply Fin.ext
    match a with
    | ⟨0, _⟩ => show win0_5.index t (0 : Fin 2) * 4000 + 1 * p.val = t.val * 4000 + p.val; rw [e0]; omega
    | ⟨1, _⟩ => show win0_5.index t (1 : Fin 2) * 64 + 1 * q.val = q.val; rw [e1]; omega
  rw [View.read_apply, hemb]
  show k0_pay1 (F := Ideal) (iblk0 V c 0 t) (iblk0 V c 1 t) (iblk0 V c 2 t) (iblk0 V c 4 t) (iblk0 V c 3 t) (ix2 p q)
    = Cert.Sage.layer1At (V c main_v24) (V c main_arg0) (V c main_arg2) (V c main_arg4) (fun q => (V c main_v25 : Vec Ideal S1x64 .f32) (ix2 (0 : Fin 1) q)) (row t p) q
  refine (pay_apply (iblk0 V c 0 t) (iblk0 V c 1 t) (iblk0 V c 2 t) (iblk0 V c 4 t) (iblk0 V c 3 t) p q).trans ?_
  unfold Cert.Sage.layer1At
  simp only [mean_blk V c t, feat_blk V c t, wl_blk V c t, wr_blk V c t, bias_blk V c t]

/-- An index of the output array is in point `t`'s block iff each coordinate is in the block's range on its axis. -/
theorem mem_blk (t : Fin cfg0.N) (i : S200000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v26).slice (win0_5.rect t)).set ↔ _
  rw [View.set_slice_whole, Rect.mem_set_unit]
  exact Iff.rfl

/-- Every index of the output array is in the block of the point its row falls in. -/
theorem cover (i : S200000x64.Idx) : ∃ t : Fin cfg0.N, (cfg0.win 5).flush t = true ∧ i ∈ ((cfg0.win 5).blk t).view.set := by
  have hi0 : (i 0).val < 200000 := (i 0).isLt
  have hi1 : (i 1).val < 64 := (i 1).isLt
  let t : Fin cfg0.N := ⟨(i 0).val / 4000, by rw [show cfg0.N = 50 from N_0]; omega⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 4000 ≤ (i 0).val ∧ (i 0).val < win0_5.index t (0 : Fin 2) * 4000 + 4000
    rw [e0]; show (i 0).val / 4000 * 4000 ≤ (i 0).val ∧ (i 0).val < (i 0).val / 4000 * 4000 + 4000; omega
  | ⟨1, _⟩ =>
    show win0_5.index t (1 : Fin 2) * 64 ≤ (i 1).val ∧ (i 1).val < win0_5.index t (1 : Fin 2) * 64 + 64
    rw [e1]; omega

/-- THE OUTPUT ARRAY after the call is the layer of the arrays the call found. -/
theorem final (c : Dev nD) : (dat0 V c).arrAt 5 cfg0.N = out V c :=
  (dat0 V c).arrAt_eq_of_cover 5 (out V c) (fun t _ => flushed_eq V c t) cover

end Cert.KernelIdeal.Layer1

end
-- ==== Proof.Layer2Body.lean ====
/-
  What the second pallas_call stores at one index of its block, as a function of the blocks it loads.

  At block `t` the body loads rows `4000 t … 4000 t + 3999` of the neighbourhood mean of the first layer's output and
  of that output itself (64 channels each), the two whole 64 × 32 weight matrices with their 1 × 32 bias row, and the
  whole 32 × 2 classifier matrix with its 1 × 2 bias row. It forms the hidden block
  `h = max (mean · Wl + bias + x · Wr) 0` (4000 × 32), each product a sum over the 64 input channels, and stores
  `h · Wc + bc` (4000 × 2), a sum over the 32 hidden channels. At the ideal values the narrowing of an operand before a
  product changes nothing, so the stored value at row `p` and class `q` is the plain double sum.
-/
import proofs.«150177_j87789131530773_1_alg».proof.Proof.Gen.KernelIdeal.Frame
import proofs.«150177_j87789131530773_1_alg».proof.Proof.Spec
import proofs.«150177_j87789131530773_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

/-! ## The hidden product (4000 × 64 by 64 × 32) at an index -/

theorem lhs_hid_0 (i : S4000x32.Idx) (q : dot_S4000x64_S64x32_S4000x32_1_0_0_1_n_n.contr.Idx) :
    (dot_S4000x64_S64x32_S4000x32_1_0_0_1_n_n.lhsIdx i q 0).val = (i 0).val := by
  unfold DotDims.lhsIdx
  rw [dif_neg (show ¬(0 : Fin S4000x64.rank) ∈ dot_S4000x64_S64x32_S4000x32_1_0_0_1_n_n.lhsBatch by decide), dif_pos (show (0 : Fin S4000x64.rank) ∈ dot_S4000x64_S64x32_S4000x32_1_0_0_1_n_n.lhsNonContracting by decide)]
  rfl
theorem lhs_hid_1 (i : S4000x32.Idx) (q : dot_S4000x64_S64x32_S4000x32_1_0_0_1_n_n.contr.Idx) :
    (dot_S4000x64_S64x32_S4000x32_1_0_0_1_n_n.lhsIdx i q 1).val = (q ⟨0, by decide⟩).val :=
  dot_S4000x64_S64x32_S4000x32_1_0_0_1_n_n.lhsIdx_val_of_single rfl i q
theorem rhs_hid_0 (i : S4000x32.Idx) (q : dot_S4000x64_S64x32_S4000x32_1_0_0_1_n_n.contr.Idx) :
    (dot_S4000x64_S64x32_S4000x32_1_0_0_1_n_n.rhsIdx i q 0).val = (q ⟨0, by decide⟩).val :=
  dot_S4000x64_S64x32_S4000x32_1_0_0_1_n_n.rhsIdx_val_of_single rfl i q
theorem rhs_hid_1 (i : S4000x32.Idx) (q : dot_S4000x64_S64x32_S4000x32_1_0_0_1_n_n.contr.Idx) :
    (dot_S4000x64_S64x32_S4000x32_1_0_0_1_n_n.rhsIdx i q 1).val = (i 1).val := by
  unfold DotDims.rhsIdx
  rw [dif_neg (show ¬(1 : Fin S64x32.rank) ∈ dot_S4000x64_S64x32_S4000x32_1_0_0_1_n_n.rhsBatch by decide), dif_pos (show (1 : Fin S64x32.rank) ∈ dot_S4000x64_S64x32_S4000x32_1_0_0_1_n_n.rhsNonContracting by decide)]
  rfl

/-- A 4000 × 64 block times a 64 × 32 matrix into the zero accumulator, at row `p` and column `q`: the sum over the
    64 contracted channels. -/
theorem matmul_hid_apply {φ₁ φ₂ : FTy} (l : FVec Ideal S4000x64 φ₁) (r : FVec Ideal S64x32 φ₂) (p : Fin 4000) (q : Fin 32) :
    matmul dot_S4000x64_S64x32_S4000x32_1_0_0_1_n_n none l r (constant S4000x32 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x32_S4000x32_1_0_0_1_n_n 64 rfl rfl).symm]
  refine Finset.sum_congr rfl fun k _ => ?_
  have hk := ValueIdx.contrEquiv1_symm_val dot_S4000x64_S64x32_S4000x32_1_0_0_1_n_n 64 rfl rfl k
  have el : dot_S4000x64_S64x32_S4000x32_1_0_0_1_n_n.lhsIdx (ix2 p q) ((ValueIdx.contrEquiv1 dot_S4000x64_S64x32_S4000x32_1_0_0_1_n_n 64 rfl rfl).symm k) = ix2 p k := funext fun a => Fin.ext (by
    match a with
    | ⟨0, _⟩ => exact lhs_hid_0 _ _
    | ⟨1, _⟩ => exact (lhs_hid_1 _ _).trans hk)
  have er : dot_S4000x64_S64x32_S4000x32_1_0_0_1_n_n.rhsIdx (ix2 p q) ((ValueIdx.contrEquiv1 dot_S4000x64_S64x32_S4000x32_1_0_0_1_n_n 64 rfl rfl).symm k) = ix2 k q := funext fun a => Fin.ext (by
    match a with
    | ⟨0, _⟩ => exact (rhs_hid_0 _ _).trans hk
    | ⟨1, _⟩ => exact rhs_hid_1 _ _)
  rw [el, er]

/-! ## The classifier product (4000 × 32 by 32 × 2) at an index -/

theorem lhs_cls_0 (i : S4000x2.Idx) (q : dot_S4000x32_S32x2_S4000x2_1_0_0_1_n_n.contr.Idx) :
    (dot_S4000x32_S32x2_S4000x2_1_0_0_1_n_n.lhsIdx i q 0).val = (i 0).val := by
  unfold DotDims.lhsIdx
  rw [dif_neg (show ¬(0 : Fin S4000x32.rank) ∈ dot_S4000x32_S32x2_S4000x2_1_0_0_1_n_n.lhsBatch by decide), dif_pos (show (0 : Fin S4000x32.rank) ∈ dot_S4000x32_S32x2_S4000x2_1_0_0_1_n_n.lhsNonContracting by decide)]
  rfl
theorem lhs_cls_1 (i : S4000x2.Idx) (q : dot_S4000x32_S32x2_S4000x2_1_0_0_1_n_n.contr.Idx) :
    (dot_S4000x32_S32x2_S4000x2_1_0_0_1_n_n.lhsIdx i q 1).val = (q ⟨0, by decide⟩).val :=
  dot_S4000x32_S32x2_S4000x2_1_0_0_1_n_n.lhsIdx_val_of_single rfl i q
theorem rhs_cls_0 (i : S4000x2.Idx) (q : dot_S4000x32_S32x2_S4000x2_1_0_0_1_n_n.contr.Idx) :
    (dot_S4000x32_S32x2_S4000x2_1_0_0_1_n_n.rhsIdx i q 0).val = (q ⟨0, by decide⟩).val :=
  dot_S4000x32_S32x2_S4000x2_1_0_0_1_n_n.rhsIdx_val_of_single rfl i q
theorem rhs_cls_1 (i : S4000x2.Idx) (q : dot_S4000x32_S32x2_S4000x2_1_0_0_1_n_n.contr.Idx) :
    (dot_S4000x32_S32x2_S4000x2_1_0_0_1_n_n.rhsIdx i q 1).val = (i 1).val := by
  unfold DotDims.rhsIdx
  rw [dif_neg (show ¬(1 : Fin S32x2.rank) ∈ dot_S4000x32_S32x2_S4000x2_1_0_0_1_n_n.rhsBatch by decide), dif_pos (show (1 : Fin S32x2.rank) ∈ dot_S4000x32_S32x2_S4000x2_1_0_0_1_n_n.rhsNonContracting by decide)]
  rfl

/-- A 4000 × 32 block times a 32 × 2 matrix into the zero accumulator, at row `p` and column `q`: the sum over the
    32 contracted channels. -/
theorem matmul_cls_apply {φ₁ φ₂ : FTy} (l : FVec Ideal S4000x32 φ₁) (r : FVec Ideal S32x2 φ₂) (p : Fin 4000) (q : Fin 2) :
    matmul dot_S4000x32_S32x2_S4000x2_1_0_0_1_n_n none l r (constant S4000x2 .f32 0x00000000#32) (ix2 p q)
      = ∑ k : Fin 32, l (ix2 p k) * r (ix2 k q) := by
  simp only [matmul]
  rw [Ideal.matmul_constant_zero_apply, ← Equiv.sum_comp (ValueIdx.contrEquiv1 dot_S4000x32_S32x2_S4000x2_1_0_0_1_n_n 32 rfl rfl).symm]
  refine Finset.sum_congr rfl fun k _ => ?_
  have hk := ValueIdx.contrEquiv1_symm_val dot_S4000x32_S32x2_S4000x2_1_0_0_1_n_n 32 rfl rfl k
  have el : dot_S4000x32_S32x2_S4000x2_1_0_0_1_n_n.lhsIdx (ix2 p q) ((ValueIdx.contrEquiv1 dot_S4000x32_S32x2_S4000x2_1_0_0_1_n_n 32 rfl rfl).symm k) = ix2 p k := funext fun a => Fin.ext (by
    match a with
    | ⟨0, _⟩ => exact lhs_cls_0 _ _
    | ⟨1, _⟩ => exact (lhs_cls_1 _ _).trans hk)
  have er : dot_S4000x32_S32x2_S4000x2_1_0_0_1_n_n.rhsIdx (ix2 p q) ((ValueIdx.contrEquiv1 dot_S4000x32_S32x2_S4000x2_1_0_0_1_n_n 32 rfl rfl).symm k) = ix2 k q := funext fun a => Fin.ext (by
    match a with
    | ⟨0, _⟩ => exact (rhs_cls_0 _ _).trans hk
    | ⟨1, _⟩ => exact rhs_cls_1 _ _)
  rw [el, er]

/-! ## The hidden block at an index -/

/-- The hidden block the body forms before the classifier product: the second layer of the loaded rows, as the body
    writes it (both row blocks cast to their own shape, every product operand narrowed, the bias row broadcast down
    the rows, the maximum against the zero scalar). -/
def hid (x0 x1 : Vec Ideal S4000x64 .f32) (x2 x4 : Vec Ideal S64x32 .f32) (x3 : Vec Ideal S1x32 .f32) : FVec Ideal S4000x32 .f32 :=
  maximumf
    (addf
      (addf
        (matmul dot_S4000x64_S64x32_S4000x32_1_0_0_1_n_n none
          (truncf .bf16 (shapeCast S4000x64 x0 shapeCasts_S4000x64_S4000x64) bitsLt_bf16_f32) (truncf .bf16 x2 bitsLt_bf16_f32)
          (constant S4000x32 .f32 0x00000000#32))
        (broadcastTo S4000x32 (shapeCast S1x32 x3 shapeCasts_S1x32_S1x32) broadcasts_S1x32_S4000x32))
      (matmul dot_S4000x64_S64x32_S4000x32_1_0_0_1_n_n none
        (truncf .bf16 (shapeCast S4000x64 x1 shapeCasts_S4000x64_S4000x64) bitsLt_bf16_f32) (truncf .bf16 x4 bitsLt_bf16_f32)
        (constant S4000x32 .f32 0x00000000#32)))
    (broadcast S4000x32 (Scalar.ofBits .f32 0x00000000#32))

/-- The hidden block at row `p` and hidden channel `k`, from the blocks loaded: the mean rows `x0`, the feature rows
    `x1`, the two weight matrices `x2` and `x4`, the bias row `x3`. -/
theorem hid_apply (x0 x1 : Vec Ideal S4000x64 .f32) (x2 x4 : Vec Ideal S64x32 .f32) (x3 : Vec Ideal S1x32 .f32)
    (p : Fin 4000) (k : Fin 32) :
    hid x0 x1 x2 x4 x3 (ix2 p k)
      = max (((∑ j : Fin 64, x0 (ix2 p j) * x2 (ix2 j k)) + x3 (ix2 (0 : Fin 1) k)) + ∑ j : Fin 64, x1 (ix2 p j) * x4 (ix2 j k)) 0 := by
  unfold hid
  rw [maximumf_apply, addf_apply, addf_apply, broadcast_apply, matmul_hid_apply, matmul_hid_apply, Cert.LibKeepdims.row_broadcast_apply]
  rw [show (FloatOps.ofBits FTy.f32 0x00000000#32 : Ideal .f32) = 0 from Ideal.ofBits_zero_f32, shapeCast_self, shapeCast_self]
  rfl

/-! ## The body's stored value at an index -/

/-- What the body stores at row `p` and class `q` of its block, from the blocks it loaded: the hidden block's row `p`
    against column `q` of the classifier matrix `x5`, plus the classifier bias `x6` at `q`. -/
theorem pay_apply (x0 x1 : Vec Ideal S4000x64 .f32) (x2 x4 : Vec Ideal S64x32 .f32) (x3 : Vec Ideal S1x32 .f32) (x5 : Vec Ideal S32x2 .f32) (x6 : Vec Ideal S1x2 .f32) (p : Fin 4000) (q : Fin 2) :
    k1_pay1 (F := Ideal) x0 x1 x2 x4 x3 x5 x6 (ix2 p q)
      = (∑ k : Fin 32, max (((∑ j : Fin 64, x0 (ix2 p j) * x2 (ix2 j k)) + x3 (ix2 (0 : Fin 1) k)) + ∑ j : Fin 64, x1 (ix2 p j) * x4 (ix2 j k)) 0 * x5 (ix2 k q)) + x6 (ix2 (0 : Fin 1) q) := by
  unfold k1_pay1
  rw [addf_apply, matmul_cls_apply, Cert.LibKeepdims.row_broadcast_apply]
  refine congrArg (· + x6 (ix2 (0 : Fin 1) q)) (Finset.sum_congr rfl fun k _ => ?_)
  rw [truncf_apply, truncf_apply]
  show hid x0 x1 x2 x4 x3 (ix2 p k) * x5 (ix2 k q) = _
  rw [hid_apply]

end Cert.KernelIdeal.Layer2

end
-- ==== Proof.Layer2Array.lean ====
/-
  The second pallas_call's output array after the call: the class scores of `Cert.Sage` of the arrays the call reads.

  Block `t` of the mean window and of the hidden-feature window is rows `4000 t … 4000 t + 3999` of their arrays (all 64
  columns); the two weight windows, the classifier window and the two bias windows are their whole arrays at every
  block; block `t` of the output window is rows `4000 t … 4000 t + 3999` of the output (both columns). So what point
  `t` writes back is block `t` of the whole array of class scores, and row `r` of the output lies in block `r / 4000`: the
  50 write-backs cover the array.
-/
import proofs.«150177_j87789131530773_1_alg».proof.Proof.Layer2Body

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each of the 50 points: the two row windows and the output window move with the
    point, the weight, classifier and bias windows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem point_lt (t : Fin cfg1.N) : t.val < 50 := lt_of_lt_of_eq t.isLt N_1

/-- Row `p` of block `t` is row `4000 t + p` of the array. -/
abbrev row (t : Fin cfg1.N) (p : Fin 4000) : Fin 200000 :=
  ⟨t.val * 4000 + p.val, by have := point_lt t; have := p.isLt; omega⟩

theorem mean_blk (c : Dev nD) (t : Fin cfg1.N) (p : Fin 4000) (j : Fin 64) :
    (iblk1 V c 0 t : Vec Ideal S4000x64 .f32) (ix2 p j) = (V c main_v38 : Vec Ideal S200000x64 .f32) (ix2 (row t p) j) := by
  obtain ⟨e0, e1, -⟩ := idx_facts t
  unfold iblk1
  rw [View.read_apply]
  show V c main_v38 _ = V c main_v38 _
  refine congrArg (V c main_v38) ?_
  funext a
  apply Fin.ext
  match a with
  | ⟨0, _⟩ => show win1_0.index t (0 : Fin 2) * 4000 + 1 * p.val = t.val * 4000 + p.val; rw [e0]; omega
  | ⟨1, _⟩ => show win1_0.index t (1 : Fin 2) * 64 + 1 * j.val = j.val; rw [e1]; omega

theorem feat_blk (c : Dev nD) (t : Fin cfg1.N) (p : Fin 4000) (j : Fin 64) :
    (iblk1 V c 1 t : Vec Ideal S4000x64 .f32) (ix2 p j) = (V c main_v26 : Vec Ideal S200000x64 .f32) (ix2 (row t p) j) := by
  obtain ⟨-, -, e0, e1, -⟩ := idx_facts t
  unfold iblk1
  rw [View.read_apply]
  show V c main_v26 _ = V c main_v26 _
  refine congrArg (V c main_v26) ?_
  funext a
  apply Fin.ext
  match a with
  | ⟨0, _⟩ => show win1_1.index t (0 : Fin 2) * 4000 + 1 * p.val = t.val * 4000 + p.val; rw [e0]; omega
  | ⟨1, _⟩ => show win1_1.index t (1 : Fin 2) * 64 + 1 * j.val = j.val; rw [e1]; omega

theorem wl_blk (c : Dev nD) (t : Fin cfg1.N) (j : Fin 64) (k : Fin 32) :
    (iblk1 V c 2 t : Vec Ideal S64x32 .f32) (ix2 j k) = (V c main_arg5 : Vec Ideal S64x32 .f32) (ix2 j k) := by
  obtain ⟨-, -, -, -, e0, e1, -⟩ := idx_facts t
  unfold iblk1
  rw [View.read_apply]
  show V c main_arg5 _ = V c main_arg5 _
  refine congrArg (V c main_arg5) ?_
  funext a
  apply Fin.ext
  match a with
  | ⟨0, _⟩ => show win1_2.index t (0 : Fin 2) * 64 + 1 * j.val = j.val; rw [e0]; omega
  | ⟨1, _⟩ => show win1_2.index t (1 : Fin 2) * 32 + 1 * k.val = k.val; rw [e1]; omega

theorem bias_blk (c : Dev nD) (t : Fin cfg1.N) (k : Fin 32) :
    (iblk1 V c 3 t : Vec Ideal S1x32 .f32) (ix2 (0 : Fin 1) k) = (V c main_v39 : Vec Ideal S1x32 .f32) (ix2 (0 : Fin 1) k) := by
  obtain ⟨-, -, -, -, -, -, e0, e1, -⟩ := idx_facts t
  unfold iblk1
  rw [View.read_apply]
  show V c main_v39 _ = V c main_v39 _
  refine congrArg (V c main_v39) ?_
  funext a
  apply Fin.ext
  match a with
  | ⟨0, _⟩ => show win1_3.index t (0 : Fin 2) * 1 + 1 * 0 = 0; rw [e0]
  | ⟨1, _⟩ => show win1_3.index t (1 : Fin 2) * 32 + 1 * k.val = k.val; rw [e1]; omega

theorem wr_blk (c : Dev nD) (t : Fin cfg1.N) (j : Fin 64) (k : Fin 32) :
    (iblk1 V c 4 t : Vec Ideal S64x32 .f32) (ix2 j k) = (V c main_arg7 : Vec Ideal S64x32 .f32) (ix2 j k) := by
  obtain ⟨-, -, -, -, -, -, -, -, e0, e1, -⟩ := idx_facts t
  unfold iblk1
  rw [View.read_apply]
  show V c main_arg7 _ = V c main_arg7 _
  refine congrArg (V c main_arg7) ?_
  funext a
  apply Fin.ext
  match a with
  | ⟨0, _⟩ => show win1_4.index t (0 : Fin 2) * 64 + 1 * j.val = j.val; rw [e0]; omega
  | ⟨1, _⟩ => show win1_4.index t (1 : Fin 2) * 32 + 1 * k.val = k.val; rw [e1]; omega

theorem wc_blk (c : Dev nD) (t : Fin cfg1.N) (k : Fin 32) (q : Fin 2) :
    (iblk1 V c 5 t : Vec Ideal S32x2 .f32) (ix2 k q) = (V c main_arg8 : Vec Ideal S32x2 .f32) (ix2 k q) := by
  obtain ⟨-, -, -, -, -, -, -, -, -, -, e0, e1, -⟩ := idx_facts t
  unfold iblk1
  rw [View.read_apply]
  show V c main_arg8 _ = V c main_arg8 _
  refine congrArg (V c main_arg8) ?_
  funext a
  apply Fin.ext
  match a with
  | ⟨0, _⟩ => show win1_5.index t (0 : Fin 2) * 32 + 1 * k.val = k.val; rw [e0]; omega
  | ⟨1, _⟩ => show win1_5.index t (1 : Fin 2) * 2 + 1 * q.val = q.val; rw [e1]; omega

theorem bc_blk (c : Dev nD) (t : Fin cfg1.N) (q : Fin 2) :
    (iblk1 V c 6 t : Vec Ideal S1x2 .f32) (ix2 (0 : Fin 1) q) = (V c main_v40 : Vec Ideal S1x2 .f32) (ix2 (0 : Fin 1) q) := by
  obtain ⟨-, -, -, -, -, -, -, -, -, -, -, -, e0, e1, -⟩ := idx_facts t
  unfold iblk1
  rw [View.read_apply]
  show V c main_v40 _ = V c main_v40 _
  refine congrArg (V c main_v40) ?_
  funext a
  apply Fin.ext
  match a with
  | ⟨0, _⟩ => show win1_6.index t (0 : Fin 2) * 1 + 1 * 0 = 0; rw [e0]
  | ⟨1, _⟩ => show win1_6.index t (1 : Fin 2) * 2 + 1 * q.val = q.val; rw [e1]; omega

/-- The whole array of class scores, of the arrays as the call finds them. -/
abbrev out (c : Dev nD) : FVec Ideal ⟨2, ![200000, 2]⟩ .f32 :=
  Cert.Sage.head (V c main_v38) (V c main_v26) (V c main_arg5) (V c main_arg7) (fun q => (V c main_v39 : Vec Ideal S1x32 .f32) (ix2 (0 : Fin 1) q)) (V c main_arg8) (fun q => (V c main_v40 : Vec Ideal S1x2 .f32) (ix2 (0 : Fin 1) q))

/-- What point `t` writes back is block `t` of the array of class scores. -/
theorem flushed_eq (c : Dev nD) (t : Fin cfg1.N) :
    (dat1 V c).flushed 7 t = ((cfg1.win 7).blk t).view.read (Elt Ideal) (out V c) := by
  show (cfg1.win 7).cut (grid1.coords t) ((dat1 V c).after 7 t) = _
  rw [after1_7]
  unfold out1_7
  rw [View.canon_unit_zero hz]
  simp only [View.ld_unit_zero (S := S4000x64) hz, View.ld_unit_zero (S := S64x32) hz, View.ld_unit_zero (S := S1x32) hz, View.ld_unit_zero (S := S32x2) hz, View.ld_unit_zero (S := S1x2) hz]
  funext i
  obtain ⟨p, q, rfl⟩ : ∃ (p : Fin 4000) (q : Fin 2), i = ix2 p q := ⟨i 0, i 1, eq_ix2 i⟩
  obtain ⟨-, -, -, -, -, -, -, -, -, -, -, -, -, -, e0, e1⟩ := idx_facts t
  have hemb : ((cfg1.win 7).blk t).view.emb (ix2 p q) = (ix2 (row t p) q : S200000x2.Idx) := by
    funext a
    apply Fin.ext
    match a with
    | ⟨0, _⟩ => show win1_7.index t (0 : Fin 2) * 4000 + 1 * p.val = t.val * 4000 + p.val; rw [e0]; omega
    | ⟨1, _⟩ => show win1_7.index t (1 : Fin 2) * 2 + 1 * q.val = q.val; rw [e1]; omega
  rw [View.read_apply, hemb]
  show k1_pay1 (F := Ideal) (iblk1 V c 0 t) (iblk1 V c 1 t) (iblk1 V c 2 t) (iblk1 V c 4 t) (iblk1 V c 3 t) (iblk1 V c 5 t) (iblk1 V c 6 t) (ix2 p q)
    = Cert.Sage.headAt (V c main_v38) (V c main_v26) (V c main_arg5) (V c main_arg7) (fun q => (V c main_v39 : Vec Ideal S1x32 .f32) (ix2 (0 : Fin 1) q)) (V c main_arg8) (fun q => (V c main_v40 : Vec Ideal S1x2 .f32) (ix2 (0 : Fin 1) q)) (row t p) q
  refine (pay_apply (iblk1 V c 0 t) (iblk1 V c 1 t) (iblk1 V c 2 t) (iblk1 V c 4 t) (iblk1 V c 3 t) (iblk1 V c 5 t) (iblk1 V c 6 t) p q).trans ?_
  unfold Cert.Sage.headAt Cert.Sage.layer2At
  simp only [mean_blk V c t, feat_blk V c t, wl_blk V c t, wr_blk V c t, bias_blk V c t, wc_blk V c t, bc_blk V c t]

/-- An index of the output array is in point `t`'s block iff each coordinate is in the block's range on its axis. -/
theorem mem_blk (t : Fin cfg1.N) (i : S200000x2.Idx) :
    i ∈ ((cfg1.win 7).blk t).view.set ↔ ∀ a : Fin 2, win1_7.index t a * S4000x2.size a ≤ (i a).val ∧ (i a).val < win1_7.index t a * S4000x2.size a + S4000x2.size a := by
  show i ∈ ((View.whole main_v41).slice (win1_7.rect t)).set ↔ _
  rw [View.set_slice_whole, Rect.mem_set_unit]
  exact Iff.rfl

/-- Every index of the output array is in the block of the point its row falls in. -/
theorem cover (i : S200000x2.Idx) : ∃ t : Fin cfg1.N, (cfg1.win 7).flush t = true ∧ i ∈ ((cfg1.win 7).blk t).view.set := by
  have hi0 : (i 0).val < 200000 := (i 0).isLt
  have hi1 : (i 1).val < 2 := (i 1).isLt
  let t : Fin cfg1.N := ⟨(i 0).val / 4000, by rw [show cfg1.N = 50 from N_1]; omega⟩
  obtain ⟨-, -, -, -, -, -, -, -, -, -, -, -, -, -, e0, e1⟩ := idx_facts t
  refine ⟨t, flush1_7 t, ?_⟩
  rw [mem_blk]
  intro a
  match a with
  | ⟨0, _⟩ =>
    show win1_7.index t (0 : Fin 2) * 4000 ≤ (i 0).val ∧ (i 0).val < win1_7.index t (0 : Fin 2) * 4000 + 4000
    rw [e0]; show (i 0).val / 4000 * 4000 ≤ (i 0).val ∧ (i 0).val < (i 0).val / 4000 * 4000 + 4000; omega
  | ⟨1, _⟩ =>
    show win1_7.index t (1 : Fin 2) * 2 ≤ (i 1).val ∧ (i 1).val < win1_7.index t (1 : Fin 2) * 2 + 2
    rw [e1]; omega

/-- THE OUTPUT ARRAY after the call is the array of class scores of the arrays the call found. -/
theorem final (c : Dev nD) : (dat1 V c).arrAt 7 cfg1.N = out V c :=
  (dat1 V c).arrAt_eq_of_cover 7 (out V c) (fun t _ => flushed_eq V c t) cover

end Cert.KernelIdeal.Layer2

end
-- ==== Proof.MeanLaw.lean ====
/-
  The neighbourhood mean: a product with the reciprocal of the clamped degree is the quotient by it.

  Both programs scatter-add the gathered rows to their destination nodes and count each node's incoming edges;
  the count is clamped below at one. One program divides each row of the sum by the node's clamped count, the other
  multiplies it by the reciprocal `1 / count` computed once. Read at node `p` and channel `q` the column broadcasts
  [n] → [n, 1] → [n, b] read the per-node value at `p`, and since the clamped count is at least one the two results
  are the same extended real.
-/
import proofs.«150177_j87789131530773_1_alg».proof.Proof.Spec
import Idealize.ShloMosaic.Lib.ValueIdx
import Idealize.ShloMosaic.Lib.Pipeline.Value
import Idealize.ShloMosaic.PureOps.Ideal.Laws

noncomputable section

namespace Cert.Sage

open Idealize.ShloMosaic Idealize.ShloMosaic.ValueIdx

/-- The word of the float one denotes the real one. -/
theorem ofBits_one_f32 : Ideal.ofBits .f32 0x3F800000#32 = 1 := by
  simp [Ideal.ofBits, Ideal.ieee]
  rw [← EReal.coe_mul]
  norm_num

/-- A per-node vector broadcast to a column and then across `b` columns, read at node `p` and channel `q`: the
    vector at `p`. -/
theorem column_apply {α : Type} {b : ℕ} (v : (⟨1, ![200000]⟩ : Shape).Idx → α)
    (h₁ : (⟨1, ![200000]⟩ : Shape).BroadcastsInDim ⟨2, ![200000, 1]⟩ ![0])
    (h₂ : (⟨2, ![200000, 1]⟩ : Shape).BroadcastsInDim ⟨2, ![200000, b]⟩ ![0, 1]) (p : Fin 200000) (q : Fin b) :
    broadcastInDim ⟨2, ![200000, b]⟩ ![0, 1] h₂ (broadcastInDim ⟨2, ![200000, 1]⟩ ![0] h₁ v) (ix2 p q) = v (ix1 p) := by
  refine (broadcastInDim_apply _ h₂ _ (ix2 p q) (ix2 p (0 : Fin 1)) fun a => ?_).trans
    (broadcastInDim_apply _ h₁ v (ix2 p (0 : Fin 1)) (ix1 p) fun a => ?_)
  · match a with
    | ⟨0, _⟩ => rfl
    | ⟨1, _⟩ => rfl
  · match a with
    | ⟨0, _⟩ => rfl

/-- The scalar one broadcast to every node reads one. -/
theorem ones_apply (h₀ : (⟨0, ![]⟩ : Shape).BroadcastsInDim ⟨1, ![200000]⟩ ![]) (i : (⟨1, ![200000]⟩ : Shape).Idx) :
    broadcastInDim ⟨1, ![200000]⟩ ![] h₀ (constant (F := Ideal) ⟨0, ![]⟩ .f32 0x3F800000#32) i = 1 :=
  (broadcastInDim_apply _ h₀ _ i ix0 fun a => a.elim0).trans ofBits_one_f32

/-- THE LAW: the per-node sums `agg` times the broadcast reciprocal of the clamped degree is `agg` divided by the
    broadcast clamped degree. -/
theorem mean_mul_eq_div {b : ℕ} (agg : FVec Ideal ⟨2, ![200000, b]⟩ .f32) (deg : FVec Ideal ⟨1, ![200000]⟩ .f32)
    (h₀ : (⟨0, ![]⟩ : Shape).BroadcastsInDim ⟨1, ![200000]⟩ ![])
    (h₁ : (⟨1, ![200000]⟩ : Shape).BroadcastsInDim ⟨2, ![200000, 1]⟩ ![0])
    (h₂ : (⟨2, ![200000, 1]⟩ : Shape).BroadcastsInDim ⟨2, ![200000, b]⟩ ![0, 1]) :
    mulf agg (broadcastInDim ⟨2, ![200000, b]⟩ ![0, 1] h₂ (broadcastInDim ⟨2, ![200000, 1]⟩ ![0] h₁
        (Host.divf (broadcastInDim ⟨1, ![200000]⟩ ![] h₀ (constant (F := Ideal) ⟨0, ![]⟩ .f32 0x3F800000#32))
          (maximumf deg (broadcastInDim ⟨1, ![200000]⟩ ![] h₀ (constant (F := Ideal) ⟨0, ![]⟩ .f32 0x3F800000#32))))))
      = Host.divf agg (broadcastInDim ⟨2, ![200000, b]⟩ ![0, 1] h₂ (broadcastInDim ⟨2, ![200000, 1]⟩ ![0] h₁
          (maximumf deg (broadcastInDim ⟨1, ![200000]⟩ ![] h₀ (constant (F := Ideal) ⟨0, ![]⟩ .f32 0x3F800000#32))))) := by
  funext i
  obtain ⟨p, q, rfl⟩ : ∃ (p : Fin 200000) (q : Fin b), i = ix2 p q := ⟨i 0, i 1, eq_ix2 i⟩
  show agg (ix2 p q) * _ = Ideal.div (agg (ix2 p q)) _
  rw [column_apply _ h₁ h₂ p q, column_apply _ h₁ h₂ p q]
  show agg (ix2 p q) * Ideal.div _ (max (deg (ix1 p)) _) = Ideal.div (agg (ix2 p q)) (max (deg (ix1 p)) _)
  rw [ones_apply h₀ (ix1 p)]
  exact mul_recip_eq_div _ _ (one_le_max_one _)

end Cert.Sage

end
-- ==== Proof.RefValue.lean ====
/-
  Two stages of the idealized reference program, read element by element.

  The reference computes a layer as two matrix products, a bias broadcast along the rows, two additions and a maximum
  with the zero array. Read at node p and channel q, every layout operation only renames the index: the products read
  row p of the left operand and column q of the right, the broadcast bias reads entry q, and the zero array reads the
  scalar 0. What is left is the closed form of the specification, max ((Σ mean·Wl + b) + Σ x·Wr) 0. The second layer and
  the classifier are the same computation twice over, the classifier's sum running over the second layer's channels.
-/
import proofs.«150177_j87789131530773_1_alg».proof.Proof.Gen.ReferenceIdeal.Read
import proofs.«150177_j87789131530773_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The index maps at a pair of coordinates

Each composed index map of the generated reading lemmas, taken at the index with coordinates (p, q), is again an index
given by coordinates. -/

/-- Row p, column k of a left operand with 12 columns (first product of the first layer). -/
theorem lidx23 (p : Fin 200000) (q : Fin 64) (k : Fin 12) : lidx_main_v23 (ix2 p q) k = ix2 p k :=
  funext fun a => Fin.ext (by match a with | ⟨0, _⟩ => rfl | ⟨1, _⟩ => rfl)

/-- Row k, column q of a 12 by 64 right operand (first product of the first layer). -/
theorem ridx23 (p : Fin 200000) (q : Fin 64) (k : Fin 12) : ridx_main_v23 (ix2 p q) k = ix2 k q :=
  funext fun a => Fin.ext (by match a with | ⟨0, _⟩ => rfl | ⟨1, _⟩ => rfl)

/-- Row p, column k of a left operand with 12 columns (second product of the first layer). -/
theorem lidx27 (p : Fin 200000) (q : Fin 64) (k : Fin 12) : lidx_main_v27 (ix2 p q) k = ix2 p k :=
  funext fun a => Fin.ext (by match a with | ⟨0, _⟩ => rfl | ⟨1, _⟩ => rfl)

/-- Row k, column q of a 12 by 64 right operand (second product of the first layer). -/
theorem ridx27 (p : Fin 200000) (q : Fin 64) (k : Fin 12) : ridx_main_v27 (ix2 p q) k = ix2 k q :=
  funext fun a => Fin.ext (by match a with | ⟨0, _⟩ => rfl | ⟨1, _⟩ => rfl)

/-- The first layer's bias, broadcast to a row and then to every row, reads its entry q. -/
theorem bidx25 (p : Fin 200000) (q : Fin 64) : idx_main_v24 (idx_main_v25 (ix2 p q)) = ix1 q :=
  funext fun a => Fin.ext (by match a with | ⟨0, _⟩ => rfl)

/-- The first layer of the reference is the specification's first layer of the neighbourhood mean and the features. -/
theorem h1_eq (x0 : (⟨S200000x12, .f32⟩ : BufTy).Contents (Elt Ideal)) (x1 : (⟨S2x3200000, .i32⟩ : BufTy).Contents (Elt Ideal)) (x2 : (⟨S12x64, .f32⟩ : BufTy).Contents (Elt Ideal)) (x3 : (⟨S64, .f32⟩ : BufTy).Contents (Elt Ideal)) (x4 : (⟨S12x64, .f32⟩ : BufTy).Contents (Elt Ideal)) :
    val_main_v29 (F := Ideal) x0 x1 x2 x3 x4 = Cert.Sage.layer1 (val_main_v22 (F := Ideal) x0 x1) x0 x2 x4 (fun q => x3 (ix1 q)) := by
  funext i
  obtain ⟨p, q, rfl⟩ : ∃ (p : Fin 200000) (q : Fin 64), i = ix2 p q := ⟨i 0, i 1, eq_ix2 i⟩
  unfold Cert.Sage.layer1 Cert.Sage.layer1At
  rw [val_main_v29_apply, val_main_v28_apply, val_main_v26_apply, val_main_v23_apply, val_main_v25_apply,
    val_main_v24_apply, val_main_v27_apply, val_main_call0_v0_apply, val_main_call0_cst_apply]
  generalize val_main_v22 (F := Ideal) x0 x1 = M
  simp only [lidx23, ridx23, lidx27, ridx27, bidx25, Ideal.maximumf_def, Ideal.addf_def, Ideal.ofBits_def,
    Ideal.ofBits_zero_f32]

/-! ## The second layer and the classifier -/

/-- Row p, column k of a left operand with 64 columns (first product of the second layer). -/
theorem lidx49 (p : Fin 200000) (q : Fin 32) (k : Fin 64) : lidx_main_v49 (ix2 p q) k = ix2 p k :=
  funext fun a => Fin.ext (by match a with | ⟨0, _⟩ => rfl | ⟨1, _⟩ => rfl)

/-- Row k, column q of a 64 by 32 right operand (first product of the second layer). -/
theorem ridx49 (p : Fin 200000) (q : Fin 32) (k : Fin 64) : ridx_main_v49 (ix2 p q) k = ix2 k q :=
  funext fun a => Fin.ext (by match a with | ⟨0, _⟩ => rfl | ⟨1, _⟩ => rfl)

/-- Row p, column k of a left operand with 64 columns (second product of the second layer). -/
theorem lidx53 (p : Fin 200000) (q : Fin 32) (k : Fin 64) : lidx_main_v53 (ix2 p q) k = ix2 p k :=
  funext fun a => Fin.ext (by match a with | ⟨0, _⟩ => rfl | ⟨1, _⟩ => rfl)

/-- Row k, column q of a 64 by 32 right operand (second product of the second layer). -/
theorem ridx53 (p : Fin 200000) (q : Fin 32) (k : Fin 64) : ridx_main_v53 (ix2 p q) k = ix2 k q :=
  funext fun a => Fin.ext (by match a with | ⟨0, _⟩ => rfl | ⟨1, _⟩ => rfl)

/-- The second layer's bias, broadcast to a row and then to every row, reads its entry q. -/
theorem bidx51 (p : Fin 200000) (q : Fin 32) : idx_main_v50 (idx_main_v51 (ix2 p q)) = ix1 q :=
  funext fun a => Fin.ext (by match a with | ⟨0, _⟩ => rfl)

/-- Row p, column k of a left operand with 32 columns (the classifier's product). -/
theorem lidx56 (p : Fin 200000) (q : Fin 2) (k : Fin 32) : lidx_main_v56 (ix2 p q) k = ix2 p k :=
  funext fun a => Fin.ext (by match a with | ⟨0, _⟩ => rfl | ⟨1, _⟩ => rfl)

/-- Row k, column q of the 32 by 2 classifier matrix. -/
theorem ridx56 (p : Fin 200000) (q : Fin 2) (k : Fin 32) : ridx_main_v56 (ix2 p q) k = ix2 k q :=
  funext fun a => Fin.ext (by match a with | ⟨0, _⟩ => rfl | ⟨1, _⟩ => rfl)

/-- The classifier's bias, broadcast to a row and then to every row, reads its entry q. -/
theorem bidx58 (p : Fin 200000) (q : Fin 2) : idx_main_v57 (idx_main_v58 (ix2 p q)) = ix1 q :=
  funext fun a => Fin.ext (by match a with | ⟨0, _⟩ => rfl)

/-- The second layer of the reference at node p and channel q is the specification's second layer of the second
    neighbourhood mean and the first layer's output. -/
theorem h2_at (x0 : (⟨S200000x12, .f32⟩ : BufTy).Contents (Elt Ideal)) (x1 : (⟨S2x3200000, .i32⟩ : BufTy).Contents (Elt Ideal)) (x2 : (⟨S12x64, .f32⟩ : BufTy).Contents (Elt Ideal)) (x3 : (⟨S64, .f32⟩ : BufTy).Contents (Elt Ideal)) (x4 : (⟨S12x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal))
    (p : Fin 200000) (q : Fin 32) :
    val_main_v55 (F := Ideal) x0 x1 x2 x3 x4 x5 x6 x7 (ix2 p q)
      = Cert.Sage.layer2At (val_main_v48 (F := Ideal) x0 x1 x2 x3 x4) (val_main_v29 (F := Ideal) x0 x1 x2 x3 x4) x5 x7 (fun q => x6 (ix1 q)) p q := by
  unfold Cert.Sage.layer2At
  rw [val_main_v55_apply, val_main_v54_apply, val_main_v52_apply, val_main_v49_apply, val_main_v51_apply,
    val_main_v50_apply, val_main_v53_apply, val_main_call1_v0_apply, val_main_call1_cst_apply]
  generalize val_main_v48 (F := Ideal) x0 x1 x2 x3 x4 = M
  generalize val_main_v29 (F := Ideal) x0 x1 x2 x3 x4 = H
  simp only [lidx49, ridx49, lidx53, ridx53, bidx51, Ideal.maximumf_def, Ideal.addf_def, Ideal.ofBits_def,
    Ideal.ofBits_zero_f32]

/-- The reference's class scores are the specification's head: the classifier applied to the second layer. -/
theorem out_eq (x0 : (⟨S200000x12, .f32⟩ : BufTy).Contents (Elt Ideal)) (x1 : (⟨S2x3200000, .i32⟩ : BufTy).Contents (Elt Ideal)) (x2 : (⟨S12x64, .f32⟩ : BufTy).Contents (Elt Ideal)) (x3 : (⟨S64, .f32⟩ : BufTy).Contents (Elt Ideal)) (x4 : (⟨S12x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (x8 : (⟨S32x2, .f32⟩ : BufTy).Contents (Elt Ideal)) (x9 : (⟨S2, .f32⟩ : BufTy).Contents (Elt Ideal)) :
    val_main_v59 (F := Ideal) x0 x1 x2 x3 x4 x5 x6 x7 x8 x9 = Cert.Sage.head (val_main_v48 (F := Ideal) x0 x1 x2 x3 x4) (val_main_v29 (F := Ideal) x0 x1 x2 x3 x4) x5 x7 (fun q => x6 (ix1 q)) x8 (fun q => x9 (ix1 q)) := by
  funext i
  obtain ⟨p, q, rfl⟩ : ∃ (p : Fin 200000) (q : Fin 2), i = ix2 p q := ⟨i 0, i 1, eq_ix2 i⟩
  unfold Cert.Sage.head Cert.Sage.headAt
  rw [val_main_v59_apply, val_main_v56_apply, val_main_v58_apply, val_main_v57_apply]
  simp only [lidx56, ridx56, bidx58, h2_at, Ideal.addf_def]

end Cert.ReferenceIdeal.RefValue

end
-- ==== Proof.KernelValue.lean ====
/-
  The idealized kernel program's result as a function of its arguments: the reference's last stage.

  The program is host operations, the first pallas_call, host operations, the second pallas_call. The first stretch
  of host operations computes the neighbourhood mean of the node features (gather the source rows, scatter-add them
  to their destinations, multiply by the reciprocal of the clamped in-degree) and reshapes the first bias to a row;
  the first call leaves the first layer of that mean and the features in its output array. The second stretch
  computes the neighbourhood mean of that array the same way and reshapes the other two biases; the second call
  leaves the class scores. Each mean is the reference's quotient by the clamped degree (`Cert.Sage.mean_mul_eq_div`),
  each layer is the reference's layer (`Cert.Sage.layer1`, `Cert.Sage.head`), so the result array is the reference's
  result of the same arguments.
-/
import proofs.«150177_j87789131530773_1_alg».proof.Proof.KernelRun
import proofs.«150177_j87789131530773_1_alg».proof.Proof.Layer1Array
import proofs.«150177_j87789131530773_1_alg».proof.Proof.Layer2Array
import proofs.«150177_j87789131530773_1_alg».proof.Proof.MeanLaw
import proofs.«150177_j87789131530773_1_alg».proof.Proof.RefValue
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable (m : (ℓ : Loc nD τ sig) → Buf (Elt Ideal) ℓ) (ρ : Dev nD → PrngReg)

/-! ## The arrays the first call finds -/

theorem V1_arg0 (c : Dev nD) : V1 m ρ c main_arg0 = m ((c : Thread nD τ).loc main_arg0) := by
  show StableHlo.after hostOps0 (W0 m ρ c) (Proc.devRef .tc main_arg0) = _
  after_results_simp
theorem V1_arg2 (c : Dev nD) : V1 m ρ c main_arg2 = m ((c : Thread nD τ).loc main_arg2) := by
  show StableHlo.after hostOps0 (W0 m ρ c) (Proc.devRef .tc main_arg2) = _
  after_results_simp
theorem V1_arg4 (c : Dev nD) : V1 m ρ c main_arg4 = m ((c : Thread nD τ).loc main_arg4) := by
  show StableHlo.after hostOps0 (W0 m ρ c) (Proc.devRef .tc main_arg4) = _
  after_results_simp

/-- The first bias, reshaped to a row, reads its entry `q`. -/
theorem V1_bias (c : Dev nD) (q : Fin 64) :
    (V1 m ρ c main_v25 : Vec Ideal S1x64 .f32) (ix2 (0 : Fin 1) q) = (m ((c : Thread nD τ).loc main_arg3) : Vec Ideal S64 .f32) (ix1 q) := by
  show StableHlo.after hostOps0 (W0 m ρ c) (Proc.devRef .tc main_v25) (ix2 (0 : Fin 1) q) = _
  after_results_simp
  exact shapeCast_a_1a_apply _ _ (0 : Fin 1) q

/-- The edge sources (negative ones wrapped), the edge destinations and the reciprocal of the clamped in-degree,
    as the first stretch of host operations leaves them. -/
theorem W1_src (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  rfl
theorem W1_dst (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl
theorem W1_recip (c : Dev nD) : W1 m ρ c (Proc.devRef .tc main_v12)
    = broadcastInDim S200000x1 ![0] bcast_S200000_S200000x1_0
        (Host.divf (broadcastInDim S200000 ![] bcast_S_S200000 (constant (F := Ideal) S_ .f32 0x3F800000#32))
          (maximumf (val_main_v17 (F := Ideal) (m ((c : Thread nD τ).loc main_arg1)))
            (broadcastInDim S200000 ![] bcast_S_S200000 (constant (F := Ideal) S_ .f32 0x3F800000#32)))) := by
  show StableHlo.after hostOps0 (W0 m ρ c) (Proc.devRef .tc main_v12) = _
  after_results_simp
  rfl

/-- The first neighbourhood mean is the reference's. -/
theorem V1_mean (c : Dev nD) :
    V1 m ρ c main_v24 = val_main_v22 (F := Ideal) (m ((c : Thread nD τ).loc main_arg0)) (m ((c : Thread nD τ).loc main_arg1)) := by
  show StableHlo.after hostOps0 (W0 m ρ c) (Proc.devRef .tc main_v24) = _
  after_results_simp
  unfold val_main_v22 val_main_v21 val_main_v20 val_main_v19 val_main_v18 val_main_cst_3
  exact Cert.Sage.mean_mul_eq_div _ _ _ _ _

/-! ## The first call's output -/

/-- After the first call its output array holds the reference's first layer. -/
theorem W2_h1 (c : Dev nD) : W2 m ρ c (Proc.devRef .tc main_v26)
    = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Layer1.final (V1 m ρ) c).trans ?_)
  rw [Cert.ReferenceIdeal.RefValue.h1_eq]
  unfold Layer1.out
  rw [V1_mean m ρ c, V1_arg0 m ρ c, V1_arg2 m ρ c, V1_arg4 m ρ c]
  exact congrArg (Cert.Sage.layer1 _ _ _ _) (funext fun q => V1_bias m ρ c q)

/-! ## The arrays the second call finds -/

/-- An argument the first stretch of host operations and the first call do not write is as launched at the second
    stretch's entry. -/
theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results_simp
theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results_simp
theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp
theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp
theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp
theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results_simp

theorem V3_arg5 (c : Dev nD) : V3 m ρ c main_arg5 = m ((c : Thread nD τ).loc main_arg5) := by
  show StableHlo.after hostOps1 (W2 m ρ c) (Proc.devRef .tc main_arg5) = _
  after_results_simp
  exact W2_arg5 m ρ c
theorem V3_arg7 (c : Dev nD) : V3 m ρ c main_arg7 = m ((c : Thread nD τ).loc main_arg7) := by
  show StableHlo.after hostOps1 (W2 m ρ c) (Proc.devRef .tc main_arg7) = _
  after_results_simp
  exact W2_arg7 m ρ c
theorem V3_arg8 (c : Dev nD) : V3 m ρ c main_arg8 = m ((c : Thread nD τ).loc main_arg8) := by
  show StableHlo.after hostOps1 (W2 m ρ c) (Proc.devRef .tc main_arg8) = _
  after_results_simp
  exact W2_arg8 m ρ c

/-- The second bias, reshaped to a row, reads its entry `q`. -/
theorem V3_bias2 (c : Dev nD) (q : Fin 32) :
    (V3 m ρ c main_v39 : Vec Ideal S1x32 .f32) (ix2 (0 : Fin 1) q) = (m ((c : Thread nD τ).loc main_arg6) : Vec Ideal S32 .f32) (ix1 q) := by
  show StableHlo.after hostOps1 (W2 m ρ c) (Proc.devRef .tc main_v39) (ix2 (0 : Fin 1) q) = _
  after_results_simp
  rw [W2_arg6 m ρ c]
  exact shapeCast_a_1a_apply _ _ (0 : Fin 1) q

/-- The classifier's bias, reshaped to a row, reads its entry `q`. -/
theorem V3_bias3 (c : Dev nD) (q : Fin 2) :
    (V3 m ρ c main_v40 : Vec Ideal S1x2 .f32) (ix2 (0 : Fin 1) q) = (m ((c : Thread nD τ).loc main_arg9) : Vec Ideal S2 .f32) (ix1 q) := by
  show StableHlo.after hostOps1 (W2 m ρ c) (Proc.devRef .tc main_v40) (ix2 (0 : Fin 1) q) = _
  after_results_simp
  rw [W2_arg9 m ρ c]
  exact shapeCast_a_1a_apply _ _ (0 : Fin 1) q

/-- The second call reads the first call's output where the first call left it. -/
theorem V3_h1 (c : Dev nD) : V3 m ρ c main_v26
    = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v26) = _
  after_results_simp
  exact W2_h1 m ρ c

/-- The second neighbourhood mean is the reference's. -/
theorem V3_mean (c : Dev nD) : V3 m ρ c main_v38
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v38) = _
  after_results_simp
  rw [W2_of_ne m ρ c main_v3 (by decide), W2_of_ne m ρ c main_v1 (by decide), W2_of_ne m ρ c main_v12 (by decide),
    W1_dst m ρ c, W1_src m ρ c, W1_recip m ρ c, W2_h1 m ρ c]
  unfold val_main_v48 val_main_v47 val_main_v46 val_main_v45 val_main_v44 val_main_cst_9 val_main_v43 val_main_v42 val_main_v41
    val_main_v40 val_main_cst_8 val_main_cst_7 val_main_v17 val_main_v16 val_main_v15 val_main_v14 val_main_cst_2 val_main_cst_1
  exact Cert.Sage.mean_mul_eq_div _ _ _ _ _

/-! ## The result -/

/-- THE RESULT ARRAY after the run is the reference's last stage of the launched arguments. -/
theorem result_eq (c : Dev nD) : W4 m ρ c (Proc.devRef .tc main_v41)
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 7).trans ((Layer2.final (V3 m ρ) c).trans ?_)
  rw [Cert.ReferenceIdeal.RefValue.out_eq]
  unfold Layer2.out
  rw [V3_mean m ρ c, V3_h1 m ρ c, V3_arg5 m ρ c, V3_arg7 m ρ c, V3_arg8 m ρ c,
    show (fun q => (V3 m ρ c main_v39 : Vec Ideal S1x32 .f32) (ix2 (0 : Fin 1) q)) = fun q => (m ((c : Thread nD τ).loc main_arg6) : Vec Ideal S32 .f32) (ix1 q) from funext fun q => V3_bias2 m ρ c q,
    show (fun q => (V3 m ρ c main_v40 : Vec Ideal S1x2 .f32) (ix2 (0 : Fin 1) q)) = fun q => (m ((c : Thread nD τ).loc main_arg9) : Vec Ideal S2 .f32) (ix1 q) from funext fun q => V3_bias3 m ρ c q]

/-- The run of the idealized kernel program with its result named by the reference's last stage of the arguments. -/
theorem run : θ_run defs (onTc (τ := τ) (main (F := Ideal))) ⟨m, fun _ => 0, ρ⟩ (fun r => ∀ c : Dev nD,
      r.2.mem ((c.tc : Thread nD τ).loc main_v41) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (run_result (F := Ideal) m ρ)

end Cert.KernelIdeal.Whole

end
-- ==== Proof.lean ====
/-
  The certificate of a two-layer GraphSAGE node classifier: the kernel program against its jnp reference.

  Both programs gather each edge's source row, scatter-add the rows to the edges' destinations and count each node's
  incoming edges. The kernel program multiplies the sums by the reciprocal of the clamped count and runs the two
  dense stages (`max (mean · Wl + b + x · Wr) 0`, the second followed by the classifier) as two pallas_calls over
  50 blocks of 4000 nodes; the reference divides by the clamped count and uses whole matrix products. Over the
  extended reals the reciprocal product is the quotient because the clamped count is at least one
  (Proof/MeanLaw.lean), a block's rows of a matrix product are the rows of the whole product (Proof/Layer1Body.lean,
  Proof/Layer1Array.lean, Proof/Layer2Body.lean, Proof/Layer2Array.lean against Proof/Spec.lean), and the reference's
  stages are the same functions (Proof/RefValue.lean); Proof/KernelValue.lean threads the kernel program's run
  through its host operations and reads its result as the reference's last stage. No finiteness of the inputs is
  used: no step distributes a product over a sum or cancels.
-/
import proofs.«150177_j87789131530773_1_alg».proof.Defs
import proofs.«150177_j87789131530773_1_alg».proof.Proof.Gen.Kernel
import proofs.«150177_j87789131530773_1_alg».proof.Proof.Gen.Kernel.Frame
import proofs.«150177_j87789131530773_1_alg».proof.Proof.Gen.KernelIdeal
import proofs.«150177_j87789131530773_1_alg».proof.Proof.Gen.KernelIdeal.Frame
import proofs.«150177_j87789131530773_1_alg».proof.Proof.Gen.ReferenceIdeal
import proofs.«150177_j87789131530773_1_alg».proof.Proof.Gen.ReferenceIdeal.Run
import proofs.«150177_j87789131530773_1_alg».proof.Proof.Gen.ReferenceIdeal.Read
import proofs.«150177_j87789131530773_1_alg».proof.Proof.Gen.Pre_finite_inputs
import proofs.«150177_j87789131530773_1_alg».proof.Proof.KernelValue

noncomputable section

namespace Cert.Proof

open Idealize.ShloMosaic Idealize.SL.Sem

/-- The three programs run, leaving their arguments as launched: the two kernel programs by their generated
    frames, the reference by its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the reference's last stage of those
    arguments in their result arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v59_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
